-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S11008x32x64 : Shape := ⟨3, ![11008, 32, 64]⟩
abbrev S352256 : Shape := ⟨1, ![352256]⟩
abbrev S176128 : Shape := ⟨1, ![176128]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S352256 : S_.BroadcastsInDim S352256 (![] : Fin 0 → Fin S352256.rank)
  reducesTo_S352256_S_d0 : S352256.ReducesTo [0] S_

variable [Facts]

def fn {F : FTy → Type} [FloatOps F] (main_arg0 : FVec F S512x4096 .f32) (main_arg1 : IVec S11008x32x64 32) (main_arg2 : FVec F S352256 .f32) (main_arg3 : IVec S176128 32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S352256 .f32 := Host.absf main_arg2
  let main_cst_0 : FVec F S_ .f32 := constant S_ .f32 0x7F800000#32
  let main_v5 : FVec F S352256 .f32 := broadcastInDim S352256 ![] bcast_S_S352256 main_cst_0
  let main_v6 : IVec S352256 1 := cmpf .olt main_v4 main_v5
  let main_c_1 : IVec S_ 1 := constantI S_ 1 1#1
  let main_v7 : IVec S_ 1 := (fun x v => Host.reduce IntOp.andi x v reducesTo_S352256_S_d0 h_S_) main_v6 main_c_1
  let main_v8 : IVec S_ 1 := andi main_v3 main_v7
  main_v8
-- ==== Kernel.lean ====
abbrev S512x4096 : Shape := ⟨2, ![512, 4096]⟩
abbrev S11008x32x64 : Shape := ⟨3, ![11008, 32, 64]⟩
abbrev S352256 : Shape := ⟨1, ![352256]⟩
abbrev S176128 : Shape := ⟨1, ![176128]⟩
abbrev S_ : Shape := ⟨0, ![]⟩
abbrev S176128x1 : Shape := ⟨2, ![176128, 1]⟩
abbrev S176128x2 : Shape := ⟨2, ![176128, 2]⟩
abbrev S11008x32 : Shape := ⟨2, ![11008, 32]⟩
abbrev S512x11008 : Shape := ⟨2, ![512, 11008]⟩
abbrev S128x32x64 : Shape := ⟨3, ![128, 32, 64]⟩
abbrev S128x32 : Shape := ⟨2, ![128, 32]⟩
abbrev S512x128 : Shape := ⟨2, ![512, 128]⟩
abbrev S128x32x64x1 : Shape := ⟨4, ![128, 32, 64, 1]⟩
abbrev S128x32x64x2 : Shape := ⟨4, ![128, 32, 64, 2]⟩
abbrev S128x32x128 : Shape := ⟨3, ![128, 32, 128]⟩
abbrev S128x32x1 : Shape := ⟨3, ![128, 32, 1]⟩
abbrev S128x4096 : Shape := ⟨2, ![128, 4096]⟩

abbrev nBuf : Space → Nat
  | .hbm => 20
  | .vmem => 9
  | .smem => 0
  | _ => 0

abbrev bufTy : (tb : Table) → Fin (tcTables nBuf tb) → BufTy
  | .hbm, ⟨0, _⟩ => ⟨S512x4096, .f32⟩
  | .hbm, ⟨1, _⟩ => ⟨S11008x32x64, .i32⟩
  | .hbm, ⟨2, _⟩ => ⟨S352256, .f32⟩
  | .hbm, ⟨3, _⟩ => ⟨S176128, .i32⟩
  | .hbm, ⟨4, _⟩ => ⟨S_, .i32⟩
  | .hbm, ⟨5, _⟩ => ⟨S176128, .i32⟩
  | .hbm, ⟨6, _⟩ => ⟨S176128, .i32⟩
  | .hbm, ⟨7, _⟩ => ⟨S_, .i32⟩
  | .hbm, ⟨8, _⟩ => ⟨S176128, .i32⟩
  | .hbm, ⟨9, _⟩ => ⟨S176128, .i32⟩
  | .hbm, ⟨10, _⟩ => ⟨S_, .i32⟩
  | .hbm, ⟨11, _⟩ => ⟨S176128, .i32⟩
  | .hbm, ⟨12, _⟩ => ⟨S176128, .i32⟩
  | .hbm, ⟨13, _⟩ => ⟨S176128x1, .i32⟩
  | .hbm, ⟨14, _⟩ => ⟨S176128x1, .i32⟩
  | .hbm, ⟨15, _⟩ => ⟨S176128x2, .i32⟩
  | .hbm, ⟨16, _⟩ => ⟨S11008x32, .i32⟩
  | .hbm, ⟨17, _⟩ => ⟨S11008x32, .f32⟩
  | .hbm, ⟨18, _⟩ => ⟨S11008x32, .f32⟩
  | .hbm, ⟨19, _⟩ => ⟨S512x11008, .f32⟩
  | .local _ .vmem, ⟨0, _⟩ => ⟨S512x4096, .f32⟩
  | .local _ .vmem, ⟨1, _⟩ => ⟨S128x32x64, .i32⟩
  | .local _ .vmem, ⟨2, _⟩ => ⟨S128x32x64, .i32⟩
  | .local _ .vmem, ⟨3, _⟩ => ⟨S128x32, .f32⟩
  | .local _ .vmem, ⟨4, _⟩ => ⟨S128x32, .f32⟩
  | .local _ .vmem, ⟨5, _⟩ => ⟨S128x32, .f32⟩
  | .local _ .vmem, ⟨6, _⟩ => ⟨S128x32, .f32⟩
  | .local _ .vmem, ⟨7, _⟩ => ⟨S512x128, .f32⟩
  | .local _ .vmem, ⟨8, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![86], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x32x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S176128 : S_.BroadcastsInDim S176128 (![] : Fin 0 → Fin S176128.rank)
  bcast_S176128_S176128x1_0 : S176128.BroadcastsInDim S176128x1 (![0] : Fin 1 → Fin S176128x1.rank)
  concatenates_S176128x1_S176128x1_S176128x2_d1 : Shape.Concatenates [S176128x1, S176128x1] S176128x2 1
  shapeCasts_S176128x2_S11008x32 : S176128x2.ShapeCasts S11008x32
  shapeCasts_S352256_S11008x32 : S352256.ShapeCasts S11008x32
  inb_S128x32x64_S128x32x64_0_0_0 : ∀ a, (![0, 0, 0] : Fin 3 → Nat) a + S128x32x64.size a ≤ S128x32x64.size a
  h_S128x32x64 : 0 < S128x32x64.numel
  shapeCasts_S128x32x64_S128x32x64x1 : S128x32x64.ShapeCasts S128x32x64x1
  concatenates_S128x32x64x1_S128x32x64x1_S128x32x64x2_d3 : Shape.Concatenates [S128x32x64x1, S128x32x64x1] S128x32x64x2 3
  shapeCasts_S128x32x64x2_S128x32x128 : S128x32x64x2.ShapeCasts S128x32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  shapeCasts_S128x32_S128x32x1 : S128x32.ShapeCasts S128x32x1
  broadcasts_S128x32x1_S128x32x128 : S128x32x1.Broadcasts S128x32x128
  shapeCasts_S128x32x128_S128x4096 : S128x32x128.ShapeCasts S128x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  inb_S512x128_S512x128_0_0 : ∀ a, (![0, 0] : Fin 2 → Nat) a + S512x128.size a ≤ S512x128.size a
  h_S512x128 : 0 < S512x128.numel
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x32x64.size a ≤ S11008x32x64.size a
  hwx0_1 : ∀ i : grid0.Coords, EltTy.bits .i32 = 32 ∨ (Rect.block (s := S11008x32x64) S128x32x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S11008x32.size a
  hwx0_2 : ∀ i : grid0.Coords, EltTy.bits .f32 = 32 ∨ (Rect.block (s := S11008x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S11008x32.size a
  hwx0_3 : ∀ i : grid0.Coords, EltTy.bits .f32 = 32 ∨ (Rect.block (s := S11008x32) S128x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x11008.size a
  hwx0_4 : ∀ i : grid0.Coords, EltTy.bits .f32 = 32 ∨ (Rect.block (s := S512x11008) S512x128.size (cc0_transform_4 i) (hinb0_4 i)).WholeWords (EltTy.packing .f32)

variable [Facts₀]

def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S512x4096 : Shape := ⟨2, ![512, 4096]⟩
abbrev S11008x32x64 : Shape := ⟨3, ![11008, 32, 64]⟩
abbrev S352256 : Shape := ⟨1, ![352256]⟩
abbrev S176128 : Shape := ⟨1, ![176128]⟩
abbrev S_ : Shape := ⟨0, ![]⟩
abbrev S11008x32x64x1 : Shape := ⟨4, ![11008, 32, 64, 1]⟩
abbrev S11008x32x64x2 : Shape := ⟨4, ![11008, 32, 64, 2]⟩
abbrev S11008x32x128 : Shape := ⟨3, ![11008, 32, 128]⟩
abbrev S176128x1 : Shape := ⟨2, ![176128, 1]⟩
abbrev S176128x2 : Shape := ⟨2, ![176128, 2]⟩
abbrev S11008x32 : Shape := ⟨2, ![11008, 32]⟩
abbrev S11008x32x1 : Shape := ⟨3, ![11008, 32, 1]⟩
abbrev S11008x4096 : Shape := ⟨2, ![11008, 4096]⟩
abbrev S4096x11008 : Shape := ⟨2, ![4096, 11008]⟩
abbrev S512x11008 : Shape := ⟨2, ![512, 11008]⟩

abbrev nBuf : Space → Nat
  | .hbm => 41
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S11008x32x64, .i32⟩
  | .hbm, ⟨2, _⟩ => ⟨S352256, .f32⟩
  | .hbm, ⟨3, _⟩ => ⟨S176128, .i32⟩
  | .hbm, ⟨4, _⟩ => ⟨S_, .i32⟩
  | .hbm, ⟨5, _⟩ => ⟨S11008x32x64, .i32⟩
  | .hbm, ⟨6, _⟩ => ⟨S11008x32x64, .i32⟩
  | .hbm, ⟨7, _⟩ => ⟨S_, .i32⟩
  | .hbm, ⟨8, _⟩ => ⟨S11008x32x64, .i32⟩
  | .hbm, ⟨9, _⟩ => ⟨S11008x32x64, .i32⟩
  | .hbm, ⟨10, _⟩ => ⟨S_, .i32⟩
  | .hbm, ⟨11, _⟩ => ⟨S11008x32x64, .i32⟩
  | .hbm, ⟨12, _⟩ => ⟨S11008x32x64, .i32⟩
  | .hbm, ⟨13, _⟩ => ⟨S11008x32x64x1, .i32⟩
  | .hbm, ⟨14, _⟩ => ⟨S11008x32x64x1, .i32⟩
  | .hbm, ⟨15, _⟩ => ⟨S11008x32x64x2, .i32⟩
  | .hbm, ⟨16, _⟩ => ⟨S11008x32x128, .i32⟩
  | .hbm, ⟨17, _⟩ => ⟨S_, .i32⟩
  | .hbm, ⟨18, _⟩ => ⟨S176128, .i32⟩
  | .hbm, ⟨19, _⟩ => ⟨S176128, .i32⟩
  | .hbm, ⟨20, _⟩ => ⟨S_, .i32⟩
  | .hbm, ⟨21, _⟩ => ⟨S176128, .i32⟩
  | .hbm, ⟨22, _⟩ => ⟨S176128, .i32⟩
  | .hbm, ⟨23, _⟩ => ⟨S_, .i32⟩
  | .hbm, ⟨24, _⟩ => ⟨S176128, .i32⟩
  | .hbm, ⟨25, _⟩ => ⟨S176128, .i32⟩
  | .hbm, ⟨26, _⟩ => ⟨S176128x1, .i32⟩
  | .hbm, ⟨27, _⟩ => ⟨S176128x1, .i32⟩
  | .hbm, ⟨28, _⟩ => ⟨S176128x2, .i32⟩
  | .hbm, ⟨29, _⟩ => ⟨S11008x32, .i32⟩
  | .hbm, ⟨30, _⟩ => ⟨S11008x32, .f32⟩
  | .hbm, ⟨31, _⟩ => ⟨S11008x32x1, .i32⟩
  | .hbm, ⟨32, _⟩ => ⟨S11008x32x128, .i32⟩
  | .hbm, ⟨33, _⟩ => ⟨S11008x32x128, .i32⟩
  | .hbm, ⟨34, _⟩ => ⟨S11008x32x128, .f32⟩
  | .hbm, ⟨35, _⟩ => ⟨S11008x32x1, .f32⟩
  | .hbm, ⟨36, _⟩ => ⟨S11008x32x128, .f32⟩
  | .hbm, ⟨37, _⟩ => ⟨S11008x32x128, .f32⟩
  | .hbm, ⟨38, _⟩ => ⟨S11008x4096, .f32⟩
  | .hbm, ⟨39, _⟩ => ⟨S4096x11008, .f32⟩
  | .hbm, ⟨40, _⟩ => ⟨S512x11008, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S_S11008x32x64 : S_.BroadcastsInDim S11008x32x64 (![] : Fin 0 → Fin S11008x32x64.rank)
  bcast_S11008x32x64_S11008x32x64x1_0_1_2 : S11008x32x64.BroadcastsInDim S11008x32x64x1 (![0, 1, 2] : Fin 3 → Fin S11008x32x64x1.rank)
  concatenates_S11008x32x64x1_S11008x32x64x1_S11008x32x64x2_d3 : Shape.Concatenates [S11008x32x64x1, S11008x32x64x1] S11008x32x64x2 3
  shapeCasts_S11008x32x64x2_S11008x32x128 : S11008x32x64x2.ShapeCasts S11008x32x128
  bcast_S_S176128 : S_.BroadcastsInDim S176128 (![] : Fin 0 → Fin S176128.rank)
  bcast_S176128_S176128x1_0 : S176128.BroadcastsInDim S176128x1 (![0] : Fin 1 → Fin S176128x1.rank)
  concatenates_S176128x1_S176128x1_S176128x2_d1 : Shape.Concatenates [S176128x1, S176128x1] S176128x2 1
  shapeCasts_S176128x2_S11008x32 : S176128x2.ShapeCasts S11008x32
  shapeCasts_S352256_S11008x32 : S352256.ShapeCasts S11008x32
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S512x4096_S4096x11008_S512x11008_1_0_0_1_n_n_wf : DotDims.WF S512x4096 S4096x11008 S512x11008 [1] [0] [0] [1] [] []

variable [Facts₀]

def dot_S512x4096_S4096x11008_S512x11008_1_0_0_1_n_n : DotDims S512x4096 S4096x11008 S512x11008 where
  lhsContracting := [1]
  rhsContracting := [0]
  lhsNonContracting := [0]
  rhsNonContracting := [1]
  lhsBatch := []
  rhsBatch := []
  wf := dot_S512x4096_S4096x11008_S512x11008_1_0_0_1_n_n_wf

class Facts : Prop extends Facts₀ where

variable [Facts]
-- ==== Proof.Nibbles.lean ====
/-
  Four-bit fields of a packed word.

  A 32-bit word carries two four-bit fields in its low byte: the low nibble `q &&& 15` and the high nibble
  `(q >>ₛ 4) &&& 15`. Whatever `q` is, each nibble read as a signed integer lies between 0 and 15. So the
  difference of two nibbles taken in 32-bit arithmetic cannot wrap, and at the ideal values converting that
  difference to a float is the difference of the two conversions: `float (a - b) = float a - float b`.
-/
import Idealize.ShloMosaic.PureOps.Ideal

noncomputable section

namespace Cert.Dequant

open Idealize.ShloMosaic

/-- Nibble `h` of a packed word: the low four bits for `h = 0`, the four bits above them otherwise. -/
def nib (q : BitVec 32) (h : Nat) : BitVec 32 :=
  if h = 0 then q &&& 15#32 else (q.sshiftRight' 4#32) &&& 15#32

/-- An arithmetic shift right by four is the same word on every arithmetic unit: four is below the width. -/
theorem shrsi_four (u : ArithUnit) (q : BitVec 32) : IntOp.shrsi u q 4#32 = q.sshiftRight' 4#32 := by
  unfold IntOp.shrsi
  rw [if_pos (by decide)]

/-- A word masked with 15 is at most 15 as a natural number. -/
theorem and15_toNat_le (q : BitVec 32) : (q &&& 15#32).toNat ≤ 15 := by
  rw [BitVec.toNat_and]
  exact Nat.and_le_right

/-- A word masked with 15, read signed, is its unsigned value: the sign bit is clear. -/
theorem and15_toInt (q : BitVec 32) : (q &&& 15#32).toInt = ((q &&& 15#32).toNat : Int) := by
  have h := and15_toNat_le q
  rw [BitVec.toInt_eq_toNat_of_lt (by omega)]

/-- Every nibble, read signed, lies between 0 and 15. -/
theorem nib_range (q : BitVec 32) (h : Nat) : 0 ≤ (nib q h).toInt ∧ (nib q h).toInt ≤ 15 := by
  unfold nib
  split
  · rw [and15_toInt]; have := and15_toNat_le q; omega
  · rw [and15_toInt]; have := and15_toNat_le (q.sshiftRight' 4#32); omega

/-- The 32-bit difference of two words between 0 and 15 is their integer difference: no wrap. -/
theorem toInt_sub_small (a b : BitVec 32) (ha : 0 ≤ a.toInt ∧ a.toInt ≤ 15) (hb : 0 ≤ b.toInt ∧ b.toInt ≤ 15) :
    (a - b).toInt = a.toInt - b.toInt := by
  rw [BitVec.toInt_sub]
  have : (2 : Int) ^ 32 = 4294967296 := by norm_num
  rw [Int.bmod_eq_of_le (by omega) (by omega)]

/-- THE LAW joining the two programs: at the ideal values, converting the 32-bit difference of two nibbles is
    subtracting the two conversions. -/
theorem sitofp_sub_nib (a b : BitVec 32) (ha : 0 ≤ a.toInt ∧ a.toInt ≤ 15) (hb : 0 ≤ b.toInt ∧ b.toInt ≤ 15) :
    (FloatOps.sitofp (F := Ideal) .f32 (IntOp.subi a b) : EReal)
      = FloatOps.sitofp (F := Ideal) .f32 a - FloatOps.sitofp (F := Ideal) .f32 b := by
  show (((IntOp.subi a b).toInt : ℝ) : EReal) = ((a.toInt : ℝ) : EReal) - ((b.toInt : ℝ) : EReal)
  unfold IntOp.subi
  rw [toInt_sub_small a b ha hb, Int.cast_sub, EReal.coe_sub]

end Cert.Dequant

end
-- ==== Proof.Interleave.lean ====
/-
  Interleaving two arrays along their last axis, read at an index.

  Stacking `lo` and `hi` on a new last axis of extent two and then merging that axis into the one before it lays
  the two arrays out alternately: position `2 i` of the merged axis holds `lo` at `i`, position `2 i + 1` holds
  `hi` at `i`. Stated for the rank-3 arrays [A, 32, 64] → [A, 32, 128] (any A) and for the flat array of 176128 words
  regrouped as [11008, 32]; with them, the two ways a program adds the unit axis the stacking needs (a shape cast, a
  broadcast along the old axes).
-/
import Idealize.ShloMosaic.Lib.Pipeline.Value
import Idealize.ShloMosaic.Lib.ValueIdx

noncomputable section

namespace Cert.Dequant

open Idealize.ShloMosaic Idealize.ShloMosaic.ValueIdx

variable {α : Type}

/-- [A, 32, 64, 1] ++ [A, 32, 64, 1] on the last axis, regrouped as [A, 32, 128]: entry (a, b, j) is `lo` at
    (a, b, j / 2) for even `j` and `hi` there for odd `j`. -/
theorem interleave_last_apply (A : Nat) (lo hi : (⟨4, ![A, 32, 64, 1]⟩ : Shape).Idx → α)
    (hc : Shape.Concatenates [⟨4, ![A, 32, 64, 1]⟩, ⟨4, ![A, 32, 64, 1]⟩] ⟨4, ![A, 32, 64, 2]⟩ (3 : Fin 4))
    (hs : (⟨4, ![A, 32, 64, 2]⟩ : Shape).ShapeCasts ⟨3, ![A, 32, 128]⟩)
    (a : Fin A) (b : Fin 32) (j : Fin 128) :
    shapeCast ⟨3, ![A, 32, 128]⟩
        (concatenate ⟨4, ![A, 32, 64, 2]⟩ (3 : Fin 4) [⟨⟨4, ![A, 32, 64, 1]⟩, lo⟩, ⟨⟨4, ![A, 32, 64, 1]⟩, hi⟩] hc) hs (ix3 a b j)
      = if j.val % 2 = 0 then lo (ix4 a b (⟨j.val / 2, by omega⟩ : Fin 64) (0 : Fin 1))
        else hi (ix4 a b (⟨j.val / 2, by omega⟩ : Fin 64) (0 : Fin 1)) := by
  have hj := j.isLt
  rw [shapeCast_apply _ hs (ix3 a b j) (ix4 a b (⟨j.val / 2, by omega⟩ : Fin 64) (⟨j.val % 2, by omega⟩ : Fin 2))
    (by rw [Shape.rowMajor_val_four, Shape.rowMajor_val_three]
        show ((a.val * 32 + b.val) * 64 + j.val / 2) * 2 + j.val % 2 = (a.val * 32 + b.val) * 128 + j.val
        omega)]
  by_cases h : j.val % 2 = 0
  · rw [if_pos h]
    exact concatenate_pair_apply_left (t := ⟨4, ![A, 32, 64, 2]⟩) (3 : Fin 4) lo hi hc
      (ix4 a b (⟨j.val / 2, by omega⟩ : Fin 64) (⟨j.val % 2, by omega⟩ : Fin 2)) rfl
      (ix4 a b (⟨j.val / 2, by omega⟩ : Fin 64) (0 : Fin 1)) (fun d => match d with
      | ⟨0, _⟩ => rfl
      | ⟨1, _⟩ => rfl
      | ⟨2, _⟩ => rfl
      | ⟨3, _⟩ => by show 0 = j.val % 2; omega)
  · rw [if_neg h]
    exact concatenate_pair_apply_right (t := ⟨4, ![A, 32, 64, 2]⟩) (3 : Fin 4) lo hi hc
      (ix4 a b (⟨j.val / 2, by omega⟩ : Fin 64) (⟨j.val % 2, by omega⟩ : Fin 2)) rfl rfl
      (ix4 a b (⟨j.val / 2, by omega⟩ : Fin 64) (0 : Fin 1)) (fun d hd => match d, hd with
      | ⟨0, _⟩, _ => rfl
      | ⟨1, _⟩, _ => rfl
      | ⟨2, _⟩, _ => rfl
      | ⟨3, _⟩, hd => absurd rfl hd) (by show 0 + 1 = j.val % 2; omega)

/-- [176128, 1] ++ [176128, 1] on the last axis, regrouped as [11008, 32]: entry (n, b) sits at flat position
    `p = 32 n + b` of the interleaved words, which is `lo` at `p / 2` for even `p` and `hi` there for odd `p`. -/
theorem interleave_flat_apply (lo hi : (⟨2, ![176128, 1]⟩ : Shape).Idx → α)
    (hc : Shape.Concatenates [⟨2, ![176128, 1]⟩, ⟨2, ![176128, 1]⟩] ⟨2, ![176128, 2]⟩ (1 : Fin 2))
    (hs : (⟨2, ![176128, 2]⟩ : Shape).ShapeCasts ⟨2, ![11008, 32]⟩)
    (n : Fin 11008) (b : Fin 32) :
    shapeCast ⟨2, ![11008, 32]⟩
        (concatenate ⟨2, ![176128, 2]⟩ (1 : Fin 2) [⟨⟨2, ![176128, 1]⟩, lo⟩, ⟨⟨2, ![176128, 1]⟩, hi⟩] hc) hs (ix2 n b)
      = if (n.val * 32 + b.val) % 2 = 0 then lo (ix2 (⟨(n.val * 32 + b.val) / 2, by omega⟩ : Fin 176128) (0 : Fin 1))
        else hi (ix2 (⟨(n.val * 32 + b.val) / 2, by omega⟩ : Fin 176128) (0 : Fin 1)) := by
  have hn := n.isLt
  have hb := b.isLt
  rw [shapeCast_apply _ hs (ix2 n b)
    (ix2 (⟨(n.val * 32 + b.val) / 2, by omega⟩ : Fin 176128) (⟨(n.val * 32 + b.val) % 2, by omega⟩ : Fin 2))
    (by rw [Shape.rowMajor_val_two, Shape.rowMajor_val_two]
        show (n.val * 32 + b.val) / 2 * 2 + (n.val * 32 + b.val) % 2 = n.val * 32 + b.val
        omega)]
  by_cases h : (n.val * 32 + b.val) % 2 = 0
  · rw [if_pos h]
    exact concatenate_pair_apply_left (t := ⟨2, ![176128, 2]⟩) (1 : Fin 2) lo hi hc
      (ix2 (⟨(n.val * 32 + b.val) / 2, by omega⟩ : Fin 176128) (⟨(n.val * 32 + b.val) % 2, by omega⟩ : Fin 2)) rfl
      (ix2 (⟨(n.val * 32 + b.val) / 2, by omega⟩ : Fin 176128) (0 : Fin 1)) (fun d => match d with
      | ⟨0, _⟩ => rfl
      | ⟨1, _⟩ => by show 0 = (n.val * 32 + b.val) % 2; omega)
  · rw [if_neg h]
    exact concatenate_pair_apply_right (t := ⟨2, ![176128, 2]⟩) (1 : Fin 2) lo hi hc
      (ix2 (⟨(n.val * 32 + b.val) / 2, by omega⟩ : Fin 176128) (⟨(n.val * 32 + b.val) % 2, by omega⟩ : Fin 2)) rfl rfl
      (ix2 (⟨(n.val * 32 + b.val) / 2, by omega⟩ : Fin 176128) (0 : Fin 1)) (fun d hd => match d, hd with
      | ⟨0, _⟩, _ => rfl
      | ⟨1, _⟩, hd => absurd rfl hd) (by show 0 + 1 = (n.val * 32 + b.val) % 2; omega)

/-- A shape cast that appends a unit axis to [A, 32, 64] keeps every entry where it was. -/
theorem shapeCast_append_unit3_apply (A : Nat) (v : (⟨3, ![A, 32, 64]⟩ : Shape).Idx → α)
    (h : (⟨3, ![A, 32, 64]⟩ : Shape).ShapeCasts ⟨4, ![A, 32, 64, 1]⟩) (a : Fin A) (b : Fin 32) (j : Fin 64) :
    shapeCast ⟨4, ![A, 32, 64, 1]⟩ v h (ix4 a b j (0 : Fin 1)) = v (ix3 a b j) :=
  shapeCast_apply v h _ _ (by
    rw [Shape.rowMajor_val_four, Shape.rowMajor_val_three]
    show (a.val * 32 + b.val) * 64 + j.val = ((a.val * 32 + b.val) * 64 + j.val) * 1 + 0
    omega)

/-- A broadcast of [11008, 32, 64] along its own three axes into [11008, 32, 64, 1] keeps every entry where it was. -/
theorem broadcastInDim_append_unit3_apply (v : (⟨3, ![11008, 32, 64]⟩ : Shape).Idx → α)
    (h : (⟨3, ![11008, 32, 64]⟩ : Shape).BroadcastsInDim ⟨4, ![11008, 32, 64, 1]⟩ (![0, 1, 2] : Fin 3 → Fin 4))
    (a : Fin 11008) (b : Fin 32) (j : Fin 64) :
    broadcastInDim ⟨4, ![11008, 32, 64, 1]⟩ (![0, 1, 2] : Fin 3 → Fin 4) h v (ix4 a b j (0 : Fin 1)) = v (ix3 a b j) :=
  broadcastInDim_apply _ h v _ _ (fun d => match d with
    | ⟨0, _⟩ => by show a.val = if (11008 : Nat) = 1 then 0 else a.val; rw [if_neg (by decide)]
    | ⟨1, _⟩ => by show b.val = if (32 : Nat) = 1 then 0 else b.val; rw [if_neg (by decide)]
    | ⟨2, _⟩ => by show j.val = if (64 : Nat) = 1 then 0 else j.val; rw [if_neg (by decide)])

/-- A broadcast of a flat array of 176128 words along its axis into [176128, 1] keeps every entry where it was. -/
theorem broadcastInDim_append_unit1_apply (v : (⟨1, ![176128]⟩ : Shape).Idx → α)
    (h : (⟨1, ![176128]⟩ : Shape).BroadcastsInDim ⟨2, ![176128, 1]⟩ (![0] : Fin 1 → Fin 2))
    (p : Fin 176128) :
    broadcastInDim ⟨2, ![176128, 1]⟩ (![0] : Fin 1 → Fin 2) h v (ix2 p (0 : Fin 1)) = v (ix1 p) :=
  broadcastInDim_apply _ h v _ _ (fun d => match d with
    | ⟨0, _⟩ => by show p.val = if (176128 : Nat) = 1 then 0 else p.val; rw [if_neg (by decide)])

end Cert.Dequant

end
-- ==== Proof.LibPlainDot.lean ====
/-
  Matrix products at the ideal values, read as plain sums over one contraction coordinate.

  A product whose dimension numbers are the library's `DotDims.plain M K N` (rows × contraction times contraction × columns, no batch
  axis) is, at the result index (r, c), the sum over k : Fin K of lhs (r, k) · rhs (k, c); one whose numbers are
  `DotDims.transposedRhs M K N` (the right operand contracted on its LAST axis) is the sum over k of lhs (r, k) · rhs (c, k).
  Stated for a kernel's `tpu.matmul` into the zero accumulator and for the host's `dot_general`, at every M, K, N: a printed
  record with these six lists is one of the two by `rfl` (the well-formedness field is a proposition).
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-! ## The operand indices of a plain product, axis by axis -/

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (q : (DotDims.plain M K N).contr.Idx) :
    ((DotDims.plain M K N).lhsIdx i q 1).val = (q ⟨0, Nat.zero_lt_one⟩).val :=
  (DotDims.plain M K N).lhsIdx_val_of_single rfl i q
theorem plain_rhs_0 (i : (⟨2, ![M, N]⟩ : Shape).Idx) (q : (DotDims.plain M K N).contr.Idx) :
    ((DotDims.plain M K N).rhsIdx i q 0).val = (q ⟨0, Nat.zero_lt_one⟩).val :=
  (DotDims.plain M K N).rhsIdx_val_of_single rfl i q
theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction shape of a plain product, re-indexed by the one contraction coordinate. -/
theorem plain_sum (lhs : (⟨2, ![M, K]⟩ : Shape).Idx → EReal) (rhs : (⟨2, ![K, N]⟩ : Shape).Idx → EReal)
    (i : (⟨2, ![M, N]⟩ : Shape).Idx) :
    (∑ q : (DotDims.plain M K N).contr.Idx, lhs ((DotDims.plain M K N).lhsIdx i q) * rhs ((DotDims.plain M K N).rhsIdx i q))
      = ∑ k : Fin K, lhs (ix2 (i 0) k) * rhs (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 M K N _ _
      | ⟨1, _⟩ => exact (plain_lhs_1 M K N _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 M K N _ _).trans hk
      | ⟨1, _⟩ => exact plain_rhs_1 M K N _ _)
  exact congrArg₂ (fun a b : EReal => a * b) (congrArg lhs el) (congrArg rhs er)

/-- A kernel's `tpu.matmul` with plain dimension numbers into the zero accumulator, at an index. -/
theorem matmul_plain_zero_apply {φ₁ φ₂ : FTy} (prec : Option ContractPrecision)
    (lhs : FVec Ideal ⟨2, ![M, K]⟩ φ₁) (rhs : FVec Ideal ⟨2, ![K, N]⟩ φ₂) (i : (⟨2, ![M, N]⟩ : Shape).Idx) :
    FloatOps.matmul (DotDims.plain M K N) prec lhs rhs (constant ⟨2, ![M, N]⟩ .f32 0x00000000#32) i
      = ∑ k : Fin K, lhs (ix2 (i 0) k) * rhs (ix2 k (i 1)) := by
  rw [Ideal.matmul_constant_zero_apply]
  exact plain_sum M K N lhs rhs i

/-- The host's `dot_general` with plain dimension numbers, at an index. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (i : (⟨2, ![M, N]⟩ : Shape).Idx) :
    FloatOps.dotGeneral (DotDims.plain M K N) prec sched lhs rhs i = ∑ k : Fin K, lhs (ix2 (i 0) k) * rhs (ix2 k (i 1)) := by
  rw [Ideal.dotGeneral_apply]
  exact plain_sum M K N lhs rhs i

/-- The two at explicit coordinates (r, c): the form a proof rewrites with, free of the index's dependent coordinate types. -/
theorem matmul_plain_zero_ix2 {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, (lhs (ix2 r k) : EReal) * (rhs (ix2 k c) : EReal) :=
  matmul_plain_zero_apply M K N prec lhs rhs (ix2 r c)
theorem dotGeneral_plain_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, (lhs (ix2 r k) : EReal) * (rhs (ix2 k c) : EReal) :=
  dotGeneral_plain_apply M K N prec sched lhs rhs (ix2 r c)

/-! ## The right operand contracted on its last axis -/

theorem transposedRhs_lhs_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
theorem transposedRhs_lhs_1 (i : (⟨2, ![M, N]⟩ : Shape).Idx) (q : (DotDims.transposedRhs M K N).contr.Idx) :
    ((DotDims.transposedRhs M K N).lhsIdx i q 1).val = (q ⟨0, Nat.zero_lt_one⟩).val :=
  (DotDims.transposedRhs M K N).lhsIdx_val_of_single rfl i q
theorem transposedRhs_rhs_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
theorem transposedRhs_rhs_1 (i : (⟨2, ![M, N]⟩ : Shape).Idx) (q : (DotDims.transposedRhs M K N).contr.Idx) :
    ((DotDims.transposedRhs M K N).rhsIdx i q 1).val = (q ⟨0, Nat.zero_lt_one⟩).val :=
  (DotDims.transposedRhs M K N).rhsIdx_val_of_single rfl i q

/-- The host's `dot_general` contracting both operands' last axes, at an index. -/
theorem dotGeneral_transposedRhs_apply {φ₁ φ₂ : FTy} (prec : Option ContractPrecision) (sched : HostSchedule)
    (lhs : FVec Ideal ⟨2, ![M, K]⟩ φ₁) (rhs : FVec Ideal ⟨2, ![N, K]⟩ φ₂) (i : (⟨2, ![M, N]⟩ : Shape).Idx) :
    FloatOps.dotGeneral (DotDims.transposedRhs M K N) prec sched lhs rhs i
      = ∑ k : Fin K, lhs (ix2 (i 0) k) * rhs (ix2 (i 1) k) := by
  rw [Ideal.dotGeneral_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k) = ix2 (i 0) k :=
    funext fun a => Fin.ext (by
      match a with
      | ⟨0, _⟩ => exact transposedRhs_lhs_0 M K N _ _
      | ⟨1, _⟩ => exact (transposedRhs_lhs_1 M K N _ _).trans hk)
  have er : (DotDims.transposedRhs M K N).rhsIdx i ((contrEquiv1 (DotDims.transposedRhs M K N) K rfl rfl).symm k) = ix2 (i 1) k :=
    funext fun a => Fin.ext (by
      match a with
      | ⟨0, _⟩ => exact transposedRhs_rhs_0 M K N _ _
      | ⟨1, _⟩ => exact (transposedRhs_rhs_1 M K N _ _).trans hk)
  exact congrArg₂ (fun a b : EReal => a * b) (congrArg lhs el) (congrArg rhs er)

theorem dotGeneral_transposedRhs_ix2 {φ₁ φ₂ : FTy} (prec : Option ContractPrecision) (sched : HostSchedule)
    (lhs : FVec Ideal ⟨2, ![M, K]⟩ φ₁) (rhs : FVec Ideal ⟨2, ![N, K]⟩ φ₂) (r : Fin M) (c : Fin N) :
    FloatOps.dotGeneral (DotDims.transposedRhs M K N) prec sched lhs rhs (ix2 r c)
      = ∑ k : Fin K, (lhs (ix2 r k) : EReal) * (rhs (ix2 c k) : EReal) :=
  dotGeneral_transposedRhs_apply M K N prec sched lhs rhs (ix2 r c)

end Cert.Lib.PlainDot

end
-- ==== Proof.LibTransposedMatmul.lean ====
/-
  A kernel's matrix product whose right operand is contracted on its LAST axis, at the ideal values.

  With dimension numbers `DotDims.transposedRhs M K N` (rows × contraction times columns × contraction, no batch axis) a
  `tpu.matmul` into the zero accumulator is, at the result index (r, c), the sum over k : Fin K of lhs (r, k) · rhs (c, k):
  at the ideal values the product into a zero accumulator and the host's `dot_general` are the same sum over the
  contraction shape, and the latter is read coordinate by coordinate in LibPlainDot. For every M, K, N; a printed record
  with the lists [1], [1], [0], [0], [], [] is `DotDims.transposedRhs` by `rfl`.
-/
import proofs.«424820_j67130338836764_1_alg».proof.Proof.LibPlainDot

noncomputable section

namespace Cert.Lib.TransposedMatmul

open Idealize.ShloMosaic Idealize.ShloMosaic.ValueIdx

/-- A `tpu.matmul` whose right operand is contracted on its last axis, into the zero accumulator, at an index. -/
theorem matmul_transposedRhs_zero_apply (M K N : Nat) {φ₁ φ₂ : FTy} (prec : Option ContractPrecision)
    (lhs : FVec Ideal ⟨2, ![M, K]⟩ φ₁) (rhs : FVec Ideal ⟨2, ![N, K]⟩ φ₂) (i : (⟨2, ![M, N]⟩ : Shape).Idx) :
    FloatOps.matmul (DotDims.transposedRhs M K N) prec lhs rhs (constant ⟨2, ![M, N]⟩ .f32 0x00000000#32) i
      = ∑ k : Fin K, lhs (ix2 (i 0) k) * rhs (ix2 (i 1) k) :=
  (Ideal.matmul_constant_zero_apply (DotDims.transposedRhs M K N) prec lhs rhs i).trans
    ((Ideal.dotGeneral_apply (DotDims.transposedRhs M K N) prec .single lhs rhs i).symm.trans
      (Cert.Lib.PlainDot.dotGeneral_transposedRhs_apply M K N prec .single lhs rhs i))

/-- The same at explicit coordinates (r, c): the form a proof rewrites with. -/
theorem matmul_transposedRhs_zero_ix2 (M K N : Nat) {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, (lhs (ix2 r k) : EReal) * (rhs (ix2 c k) : EReal) :=
  matmul_transposedRhs_zero_apply M K N prec lhs rhs (ix2 r c)

end Cert.Lib.TransposedMatmul

end
-- ==== Proof.Weights.lean ====
/-
  The dequantized linear layer as one function of its four arguments.

  The packed weights are [11008, 32, 64] words, each carrying two four-bit quantized weights: word (n, b, i) holds the
  weights of output channel n at input features 128 b + 2 i (low nibble) and 128 b + 2 i + 1 (high nibble). The zero
  points are 176128 words, each carrying two four-bit zero points: the zero point of channel n and group b is nibble
  (32 n + b) mod 2 of word (32 n + b) / 2. The scale of channel n and group b is entry 32 n + b of the flat scale table.
  The dequantized weight is (weight − zero point) · scale, and the result at (r, n) is Σ_k x (r, k) · weight (n, k).
-/
import proofs.«424820_j67130338836764_1_alg».proof.Proof.Nibbles
import proofs.«424820_j67130338836764_1_alg».proof.Proof.Interleave
import proofs.«424820_j67130338836764_1_alg».proof.Proof.LibTransposedMatmul

noncomputable section

namespace Cert.Dequant

open Idealize.ShloMosaic Idealize.ShloMosaic.ValueIdx

/-- The four-bit zero point of output channel `n`, group `b`. -/
def zpt (qz : IVec ⟨1, ![176128]⟩ 32) (n : Fin 11008) (b : Fin 32) : BitVec 32 :=
  nib (qz (ix1 (⟨(n.val * 32 + b.val) / 2, by omega⟩ : Fin 176128))) ((n.val * 32 + b.val) % 2)

/-- The four-bit quantized weight at row `a`, group `b`, position `j` of the group, in a packed array of `A` rows. -/
def wq (A : Nat) (qw : IVec ⟨3, ![A, 32, 64]⟩ 32) (a : Fin A) (b : Fin 32) (j : Fin 128) : BitVec 32 :=
  nib (qw (ix3 a b (⟨j.val / 2, by omega⟩ : Fin 64))) (j.val % 2)

/-- A zero point is a nibble: between 0 and 15. -/
theorem zpt_range (qz : IVec ⟨1, ![176128]⟩ 32) (n : Fin 11008) (b : Fin 32) :
    0 ≤ (zpt qz n b).toInt ∧ (zpt qz n b).toInt ≤ 15 := nib_range _ _

/-- A quantized weight is a nibble: between 0 and 15. -/
theorem wq_range (A : Nat) (qw : IVec ⟨3, ![A, 32, 64]⟩ 32) (a : Fin A) (b : Fin 32) (j : Fin 128) :
    0 ≤ (wq A qw a b j).toInt ∧ (wq A qw a b j).toInt ≤ 15 := nib_range _ _

/-- The scale of output channel `n`, group `b`. -/
def scl (sc : FVec Ideal ⟨1, ![352256]⟩ .f32) (n : Fin 11008) (b : Fin 32) : EReal :=
  sc (ix1 (⟨n.val * 32 + b.val, by omega⟩ : Fin 352256))

/-- The group of input feature `k`, and its position in the group. -/
abbrev grp (k : Fin 4096) : Fin 32 := ⟨k.val / 128, by omega⟩
abbrev pos (k : Fin 4096) : Fin 128 := ⟨k.val % 128, by omega⟩

/-- The dequantized weight of output channel `n` at input feature `k`: (weight − zero point) · scale. -/
def wt (qw : IVec ⟨3, ![11008, 32, 64]⟩ 32) (sc : FVec Ideal ⟨1, ![352256]⟩ .f32) (qz : IVec ⟨1, ![176128]⟩ 32)
    (n : Fin 11008) (k : Fin 4096) : EReal :=
  ((((wq 11008 qw n (grp k) (pos k)).toInt : ℝ) : EReal) - (((zpt qz n (grp k)).toInt : ℝ) : EReal)) * scl sc n (grp k)

/-- The result at row `r`, output channel `n`. -/
def outAt (x : FVec Ideal ⟨2, ![512, 4096]⟩ .f32) (qw : IVec ⟨3, ![11008, 32, 64]⟩ 32)
    (sc : FVec Ideal ⟨1, ![352256]⟩ .f32) (qz : IVec ⟨1, ![176128]⟩ 32) (r : Fin 512) (n : Fin 11008) : EReal :=
  ∑ k : Fin 4096, x (ix2 r k) * wt qw sc qz n k

/-- The whole result array. -/
def result (x : FVec Ideal ⟨2, ![512, 4096]⟩ .f32) (qw : IVec ⟨3, ![11008, 32, 64]⟩ 32)
    (sc : FVec Ideal ⟨1, ![352256]⟩ .f32) (qz : IVec ⟨1, ![176128]⟩ 32) : FVec Ideal ⟨2, ![512, 11008]⟩ .f32 :=
  fun i => outAt x qw sc qz (i 0) (i 1)

theorem result_ix2 (x : FVec Ideal ⟨2, ![512, 4096]⟩ .f32) (qw : IVec ⟨3, ![11008, 32, 64]⟩ 32)
    (sc : FVec Ideal ⟨1, ![352256]⟩ .f32) (qz : IVec ⟨1, ![176128]⟩ 32) (r : Fin 512) (n : Fin 11008) :
    result x qw sc qz (ix2 r n) = outAt x qw sc qz r n := rfl

/-! ## Unpacking -/

/-- The zero-point table [11008, 32]: the low nibbles and the high nibbles of the packed words, each with a unit axis
    appended, interleaved. -/
theorem zero_table_apply (qz : IVec ⟨1, ![176128]⟩ 32) (lo hi : IVec ⟨2, ![176128, 1]⟩ 32)
    (hlo : ∀ p : Fin 176128, lo (ix2 p (0 : Fin 1)) = qz (ix1 p) &&& 15#32)
    (hhi : ∀ p : Fin 176128, hi (ix2 p (0 : Fin 1)) = (qz (ix1 p)).sshiftRight' 4#32 &&& 15#32)
    (hc : Shape.Concatenates [⟨2, ![176128, 1]⟩, ⟨2, ![176128, 1]⟩] ⟨2, ![176128, 2]⟩ (1 : Fin 2))
    (hs : (⟨2, ![176128, 2]⟩ : Shape).ShapeCasts ⟨2, ![11008, 32]⟩) (n : Fin 11008) (b : Fin 32) :
    shapeCast ⟨2, ![11008, 32]⟩
        (concatenate ⟨2, ![176128, 2]⟩ (1 : Fin 2) [⟨⟨2, ![176128, 1]⟩, lo⟩, ⟨⟨2, ![176128, 1]⟩, hi⟩] hc) hs (ix2 n b)
      = zpt qz n b := by
  rw [interleave_flat_apply]
  unfold zpt nib
  by_cases h : (n.val * 32 + b.val) % 2 = 0
  · rw [if_pos h, if_pos h, hlo]
  · rw [if_neg h, if_neg h, hhi]

/-- The unpacked weights [A, 32, 128]: the low nibbles and the high nibbles of the packed words, each with a unit axis
    appended, interleaved along the last axis. -/
theorem weight_words_apply (A : Nat) (qw : IVec ⟨3, ![A, 32, 64]⟩ 32) (lo hi : IVec ⟨4, ![A, 32, 64, 1]⟩ 32)
    (hlo : ∀ (a : Fin A) (b : Fin 32) (i : Fin 64), lo (ix4 a b i (0 : Fin 1)) = qw (ix3 a b i) &&& 15#32)
    (hhi : ∀ (a : Fin A) (b : Fin 32) (i : Fin 64), hi (ix4 a b i (0 : Fin 1)) = (qw (ix3 a b i)).sshiftRight' 4#32 &&& 15#32)
    (hc : Shape.Concatenates [⟨4, ![A, 32, 64, 1]⟩, ⟨4, ![A, 32, 64, 1]⟩] ⟨4, ![A, 32, 64, 2]⟩ (3 : Fin 4))
    (hs : (⟨4, ![A, 32, 64, 2]⟩ : Shape).ShapeCasts ⟨3, ![A, 32, 128]⟩) (a : Fin A) (b : Fin 32) (j : Fin 128) :
    shapeCast ⟨3, ![A, 32, 128]⟩
        (concatenate ⟨4, ![A, 32, 64, 2]⟩ (3 : Fin 4) [⟨⟨4, ![A, 32, 64, 1]⟩, lo⟩, ⟨⟨4, ![A, 32, 64, 1]⟩, hi⟩] hc) hs (ix3 a b j)
      = wq A qw a b j := by
  rw [interleave_last_apply]
  unfold wq nib
  by_cases h : j.val % 2 = 0
  · rw [if_pos h, if_pos h, hlo]
  · rw [if_neg h, if_neg h, hhi]

end Cert.Dequant

end
-- ==== Proof.KernelPayload.lean ====
/-
  What the kernel body stores, at an index.

  For one tile of 128 output channels the body unpacks the tile's packed words [128, 32, 64] into quantized weights
  [128, 32, 128], converts them, subtracts the tile's zero points and multiplies by its scales (each [128, 32], one per
  channel and group, spread along the group's 128 positions), regroups the result as a [128, 4096] weight block W and
  stores x · Wᵀ: entry (r, c) of the stored block is Σ_k x (r, k) · W (c, k), feature k being position k mod 128 of
  group k / 128. The narrowing of both operands to bf16 changes nothing at the ideal values.
-/
import proofs.«424820_j67130338836764_1_alg».proof.Proof.Weights
import proofs.«424820_j67130338836764_1_alg».proof.Proof.Gen.KernelIdeal.Skeleton

noncomputable section

namespace Cert.Dequant.Body

open Idealize.ShloMosaic Idealize.ShloMosaic.ValueIdx Cert.KernelIdeal Cert.KernelIdeal.Gen Cert.Dequant

/-- A [128, 32] table given a trailing unit axis and spread along 128 positions reads, at (c, g, p), the table at (c, g). -/
theorem spread_apply {α : Type} (w : (⟨2, ![128, 32]⟩ : Shape).Idx → α)
    (h1 : (⟨2, ![128, 32]⟩ : Shape).ShapeCasts ⟨2, ![128, 32]⟩)
    (h2 : (⟨2, ![128, 32]⟩ : Shape).ShapeCasts ⟨3, ![128, 32, 1]⟩)
    (h3 : (⟨3, ![128, 32, 1]⟩ : Shape).Broadcasts ⟨3, ![128, 32, 128]⟩)
    (c : Fin 128) (g : Fin 32) (p : Fin 128) :
    broadcastTo ⟨3, ![128, 32, 128]⟩ (shapeCast ⟨3, ![128, 32, 1]⟩ (shapeCast ⟨2, ![128, 32]⟩ w h1) h2) h3 (ix3 c g p)
      = w (ix2 c g) := by
  rw [broadcastTo_apply _ h3 (ix3 c g p) (ix3 c g (0 : Fin 1)) (fun a => match a with
    | ⟨0, _⟩ => by show c.val = if (128 : Nat) = 1 then 0 else c.val; rw [if_neg (by decide)]
    | ⟨1, _⟩ => by show g.val = if (32 : Nat) = 1 then 0 else g.val; rw [if_neg (by decide)]
    | ⟨2, _⟩ => by show 0 = if (1 : Nat) = 1 then 0 else p.val; rw [if_pos rfl])]
  rw [shapeCast_apply _ h2 (ix3 c g (0 : Fin 1)) (ix2 c g) (by
    rw [Shape.rowMajor_val_two, Shape.rowMajor_val_three]
    show c.val * 32 + g.val = (c.val * 32 + g.val) * 1 + 0
    omega)]
  rw [shapeCast_self]

/-- The tile's dequantized weight block [128, 4096], as the body computes it from the tile's packed words `v0`, its
    scales `v11` and its zero points `v13`. -/
def wblock (v0 : Vec Ideal S128x32x64 .i32) (v11 : Vec Ideal S128x32 .f32) (v13 : Vec Ideal S128x32 .f32) :
    FVec Ideal S128x4096 .f32 :=
  shapeCast S128x4096
    (mulf
      (subf
        (sitofp .f32
          (shapeCast S128x32x128
            (concatenate S128x32x64x2 3
              [⟨S128x32x64x1, shapeCast S128x32x64x1 (andi v0 (broadcast S128x32x64 15#32)) shapeCasts_S128x32x64_S128x32x64x1⟩,
               ⟨S128x32x64x1, shapeCast S128x32x64x1 (andi (shrsi v0 (broadcast S128x32x64 4#32)) (broadcast S128x32x64 15#32)) shapeCasts_S128x32x64_S128x32x64x1⟩]
              concatenates_S128x32x64x1_S128x32x64x1_S128x32x64x2_d3)
            shapeCasts_S128x32x64x2_S128x32x128))
        (broadcastTo S128x32x128 (shapeCast S128x32x1 (shapeCast S128x32 v13 shapeCasts_S128x32_S128x32) shapeCasts_S128x32_S128x32x1)
          broadcasts_S128x32x1_S128x32x128))
      (broadcastTo S128x32x128 (shapeCast S128x32x1 (shapeCast S128x32 v11 shapeCasts_S128x32_S128x32) shapeCasts_S128x32_S128x32x1)
        broadcasts_S128x32x1_S128x32x128))
    shapeCasts_S128x32x128_S128x4096

/-- The stored value is the product of x with the weight block, the right operand contracted on its last axis. -/
theorem payload_eq (v0 : Vec Ideal S128x32x64 .i32) (v11 : Vec Ideal S128x32 .f32) (v13 : Vec Ideal S128x32 .f32)
    (v24 : Vec Ideal S512x4096 .f32) :
    k0_pay1 (F := Ideal) v0 v11 v13 v24
      = matmul dot_S512x4096_S128x4096_S512x128_1_1_0_0_n_n none (truncf .bf16 v24 bitsLt_bf16_f32)
          (truncf .bf16 (wblock v0 v11 v13) bitsLt_bf16_f32) (constant S512x128 .f32 0x00000000#32) := rfl

/-- The low nibbles of the tile's packed words, with the unit axis appended. -/
theorem low_words (v0 : Vec Ideal S128x32x64 .i32) (a : Fin 128) (b : Fin 32) (i : Fin 64) :
    shapeCast S128x32x64x1 (andi v0 (broadcast S128x32x64 15#32)) shapeCasts_S128x32x64_S128x32x64x1 (ix4 a b i (0 : Fin 1))
      = v0 (ix3 a b i) &&& 15#32 := by
  rw [shapeCast_append_unit3_apply]
  rfl

/-- The high nibbles of the tile's packed words, with the unit axis appended. -/
theorem high_words (v0 : Vec Ideal S128x32x64 .i32) (a : Fin 128) (b : Fin 32) (i : Fin 64) :
    shapeCast S128x32x64x1 (andi (shrsi v0 (broadcast S128x32x64 4#32)) (broadcast S128x32x64 15#32)) shapeCasts_S128x32x64_S128x32x64x1
        (ix4 a b i (0 : Fin 1))
      = (v0 (ix3 a b i)).sshiftRight' 4#32 &&& 15#32 := by
  rw [shapeCast_append_unit3_apply]
  show IntOp.andi (IntOp.shrsi .vector (v0 (ix3 a b i)) 4#32) 15#32 = _
  rw [shrsi_four]
  rfl

/-- Entry (c, k) of the weight block: (weight − zero point) · scale at channel c of the tile, group k / 128, position
    k mod 128. -/
theorem wblock_apply (v0 : Vec Ideal S128x32x64 .i32) (v11 : Vec Ideal S128x32 .f32) (v13 : Vec Ideal S128x32 .f32)
    (c : Fin 128) (k : Fin 4096) :
    wblock v0 v11 v13 (ix2 c k)
      = ((((wq 128 v0 c (grp k) (pos k)).toInt : ℝ) : EReal) - v13 (ix2 c (grp k))) * v11 (ix2 c (grp k)) := by
  have hc := c.isLt
  have hk := k.isLt
  unfold wblock
  rw [shapeCast_apply _ shapeCasts_S128x32x128_S128x4096 (ix2 c k) (ix3 c (grp k) (pos k)) (by
    rw [Shape.rowMajor_val_three, Shape.rowMajor_val_two]
    show (c.val * 32 + k.val / 128) * 128 + k.val % 128 = c.val * 4096 + k.val
    omega)]
  rw [mulf_apply, subf_apply, sitofp_apply, spread_apply, spread_apply,
    weight_words_apply 128 v0 _ _ (low_words v0) (high_words v0)]
  rfl

/-- Entry (r, c) of the stored block. -/
theorem payload_apply (v0 : Vec Ideal S128x32x64 .i32) (v11 : Vec Ideal S128x32 .f32) (v13 : Vec Ideal S128x32 .f32)
    (v24 : Vec Ideal S512x4096 .f32) (r : Fin 512) (c : Fin 128) :
    k0_pay1 (F := Ideal) v0 v11 v13 v24 (ix2 r c)
      = ∑ k : Fin 4096, v24 (ix2 r k)
          * (((((wq 128 v0 c (grp k) (pos k)).toInt : ℝ) : EReal) - v13 (ix2 c (grp k))) * v11 (ix2 c (grp k))) := by
  rw [payload_eq]
  refine (Cert.Lib.TransposedMatmul.matmul_transposedRhs_zero_ix2 512 4096 128 none (truncf .bf16 v24 bitsLt_bf16_f32)
    (truncf .bf16 (wblock v0 v11 v13) bitsLt_bf16_f32) r c).trans ?_
  refine Finset.sum_congr rfl fun k _ => ?_
  rw [truncf_apply, truncf_apply, wblock_apply]

end Cert.Dequant.Body

end
-- ==== Proof.KernelValue.lean ====
/-
  The kernel computes `Dequant.result`.

  Grid point t handles output channels 128 t … 128 t + 127. It is handed the whole of x, rows 128 t … of the packed
  weights, and rows 128 t … of two [11008, 32] tables the host prepared: the flat scales regrouped, and the zero points
  unpacked and converted. So the scale the body reads at (c, g) is the scale of channel 128 t + c and group g, and the
  zero point it reads there is the conversion of that channel's and group's four-bit zero point. With the body's stored
  block (`Body.payload_apply`), point t writes columns 128 t … 128 t + 127 of `Dequant.result`; the 86 points' column
  blocks cover the [512, 11008] result.
-/
import proofs.«424820_j67130338836764_1_alg».proof.Proof.KernelPayload
import proofs.«424820_j67130338836764_1_alg».proof.Proof.Gen.KernelIdeal.Value
import Idealize.ShloMosaic.Lib.StableHlo.Run

set_option maxRecDepth 16384

noncomputable section

namespace Cert.Dequant.Kernel

open Idealize.ShloMosaic Idealize.ShloMosaic.ValueIdx Idealize.ShloMosaic.TcCoe Idealize.SL.Sem
open Cert.KernelIdeal Cert.KernelIdeal.Gen Cert.Dequant
open Idealize.ShloMosaic.Pipeline (Dat)

variable (m : (ℓ : Loc nD τ sig) → Buf (Elt Ideal) ℓ) (ρ : Dev nD → PrngReg)

/-! ## The four arguments, at their literal types -/

abbrev argX (c : Dev nD) : FVec Ideal ⟨2, ![512, 4096]⟩ .f32 := m ((c : Thread nD τ).loc main_arg0)
abbrev argQ (c : Dev nD) : IVec ⟨3, ![11008, 32, 64]⟩ 32 := m ((c : Thread nD τ).loc main_arg1)
abbrev argS (c : Dev nD) : FVec Ideal ⟨1, ![352256]⟩ .f32 := m ((c : Thread nD τ).loc main_arg2)
abbrev argZ (c : Dev nD) : IVec ⟨1, ![176128]⟩ 32 := m ((c : Thread nD τ).loc main_arg3)

/-! ## The two tables the host prepares -/

/-- The low and the high nibbles of the packed zero points, each with a unit axis appended. -/
def zlo (qz : IVec S176128 32) : IVec S176128x1 32 :=
  broadcastInDim S176128x1 ![0] bcast_S176128_S176128x1_0
    (andi qz (broadcastInDim S176128 ![] bcast_S_S176128 (constantI S_ 32 15#32)))
def zhi (qz : IVec S176128 32) : IVec S176128x1 32 :=
  broadcastInDim S176128x1 ![0] bcast_S176128_S176128x1_0
    (andi (Host.shrsi qz (broadcastInDim S176128 ![] bcast_S_S176128 (constantI S_ 32 4#32)))
      (broadcastInDim S176128 ![] bcast_S_S176128 (constantI S_ 32 15#32)))

theorem zlo_apply (qz : IVec S176128 32) (p : Fin 176128) : zlo qz (ix2 p (0 : Fin 1)) = qz (ix1 p) &&& 15#32 := by
  unfold zlo
  rw [broadcastInDim_append_unit1_apply]
  rfl

theorem zhi_apply (qz : IVec S176128 32) (p : Fin 176128) :
    zhi qz (ix2 p (0 : Fin 1)) = (qz (ix1 p)).sshiftRight' 4#32 &&& 15#32 := by
  unfold zhi
  rw [broadcastInDim_append_unit1_apply]
  show IntOp.andi (IntOp.shrsi .host (qz (ix1 p)) 4#32) 15#32 = _
  rw [shrsi_four]
  rfl

/-- The zero-point table the region finds: the unpacked zero points, converted. -/
theorem zero_table (c : Dev nD) :
    @Eq (FVec Ideal S11008x32 .f32) (V m c main_v10)
      (sitofp (F := Ideal) .f32 (shapeCast S11008x32
          (concatenate S176128x2 1 [⟨S176128x1, zlo (argZ m c)⟩, ⟨S176128x1, zhi (argZ m c)⟩]
            concatenates_S176128x1_S176128x1_S176128x2_d1) shapeCasts_S176128x2_S11008x32)) := by
  dsimp only [Gen.V, Gen.hostOps0]
  after_results
  rfl

/-- The scale table the region finds: the flat scales regrouped. -/
theorem scale_table (c : Dev nD) :
    @Eq (FVec Ideal S11008x32 .f32) (V m c main_v11) (shapeCast S11008x32 (argS m c) shapeCasts_S352256_S11008x32) := by
  dsimp only [Gen.V, Gen.hostOps0]
  after_results
  rfl

theorem zero_table_at (c : Dev nD) (n : Fin 11008) (b : Fin 32) :
    (V m c main_v10 : FVec Ideal S11008x32 .f32) (ix2 n b) = (((zpt (argZ m c) n b).toInt : ℝ) : EReal) := by
  rw [zero_table, sitofp_apply,
    zero_table_apply (argZ m c) _ _ (zlo_apply (argZ m c)) (zhi_apply (argZ m c))]
  rfl

theorem scale_table_at (c : Dev nD) (n : Fin 11008) (b : Fin 32) :
    (V m c main_v11 : FVec Ideal S11008x32 .f32) (ix2 n b) = scl (argS m c) n b := by
  have hn := n.isLt
  have hb := b.isLt
  rw [scale_table, shapeCast_apply _ shapeCasts_S352256_S11008x32 (ix2 n b)
    (ix1 (⟨n.val * 32 + b.val, by omega⟩ : Fin 352256)) (by
      rw [Shape.rowMajor_val_one, Shape.rowMajor_val_two]
      rfl)]
  rfl

/-! ## The windows' blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps over the 86 grid points: x is handed whole; the packed weights and the two tables by row
    blocks, point t's being block t; the result by column blocks, point t's being block t. -/
theorem index_maps : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val :=
  (by decide +kernel : ∀ t : Fin grid0.N, _)

/-- The channel point `t` handles at position `c` of its tile. -/
abbrev chan (t : Fin cfg0.N) (c : Fin 128) : Fin 11008 :=
  ⟨128 * t.val + c.val, by have ht : t.val < 86 := t.isLt; have := c.isLt; omega⟩

/-- Each input block at its literal type. -/
abbrev xblk (c : Dev nD) (t : Fin cfg0.N) : Vec Ideal S512x4096 .f32 := iblk m c 0 t
abbrev qblk (c : Dev nD) (t : Fin cfg0.N) : Vec Ideal S128x32x64 .i32 := iblk m c 1 t
abbrev sblk (c : Dev nD) (t : Fin cfg0.N) : Vec Ideal S128x32 .f32 := iblk m c 2 t
abbrev zblk (c : Dev nD) (t : Fin cfg0.N) : Vec Ideal S128x32 .f32 := iblk m c 3 t

theorem xblk_apply (c : Dev nD) (t : Fin cfg0.N) (r : Fin 512) (k : Fin 4096) :
    xblk m c t (ix2 r k) = argX m c (ix2 r k) := by
  obtain ⟨e0, e1, -⟩ := index_maps t
  show V m c main_arg0 (((cfg0.win 0).blk t).view.emb (ix2 r k)) = _
  rw [V_main_arg0]
  refine congrArg (argX m c) (funext fun a => Fin.ext ?_)
  match a with
  | ⟨0, _⟩ => show win0_0.index t (0 : Fin 2) * 512 + 1 * r.val = r.val; omega
  | ⟨1, _⟩ => show win0_0.index t (1 : Fin 2) * 4096 + 1 * k.val = k.val; omega

theorem qblk_apply (c : Dev nD) (t : Fin cfg0.N) (a : Fin 128) (b : Fin 32) (i : Fin 64) :
    qblk m c t (ix3 a b i) = argQ m c (ix3 (chan t a) b i) := by
  obtain ⟨-, -, e0, e1, e2, -⟩ := index_maps t
  show V m c main_arg1 (((cfg0.win 1).blk t).view.emb (ix3 a b i)) = _
  rw [V_main_arg1]
  refine congrArg (argQ m c) (funext fun d => Fin.ext ?_)
  match d with
  | ⟨0, _⟩ => show win0_1.index t (0 : Fin 3) * 128 + 1 * a.val = 128 * t.val + a.val; omega
  | ⟨1, _⟩ => show win0_1.index t (1 : Fin 3) * 32 + 1 * b.val = b.val; omega
  | ⟨2, _⟩ => show win0_1.index t (2 : Fin 3) * 64 + 1 * i.val = i.val; omega

theorem sblk_apply (c : Dev nD) (t : Fin cfg0.N) (a : Fin 128) (b : Fin 32) :
    sblk m c t (ix2 a b) = scl (argS m c) (chan t a) b := by
  obtain ⟨-, -, -, -, -, e0, e1, -⟩ := index_maps t
  rw [← scale_table_at m c (chan t a) b]
  show (V m c main_v11 : FVec Ideal S11008x32 .f32) (((cfg0.win 2).blk t).view.emb (ix2 a b)) = _
  refine congrArg (V m c main_v11 : FVec Ideal S11008x32 .f32) (funext fun d => Fin.ext ?_)
  match d with
  | ⟨0, _⟩ => show win0_2.index t (0 : Fin 2) * 128 + 1 * a.val = 128 * t.val + a.val; omega
  | ⟨1, _⟩ => show win0_2.index t (1 : Fin 2) * 32 + 1 * b.val = b.val; omega

theorem zblk_apply (c : Dev nD) (t : Fin cfg0.N) (a : Fin 128) (b : Fin 32) :
    zblk m c t (ix2 a b) = (((zpt (argZ m c) (chan t a) b).toInt : ℝ) : EReal) := by
  obtain ⟨-, -, -, -, -, -, -, e0, e1, -⟩ := index_maps t
  rw [← zero_table_at m c (chan t a) b]
  show (V m c main_v10 : FVec Ideal S11008x32 .f32) (((cfg0.win 3).blk t).view.emb (ix2 a b)) = _
  refine congrArg (V m c main_v10 : FVec Ideal S11008x32 .f32) (funext fun d => Fin.ext ?_)
  match d with
  | ⟨0, _⟩ => show win0_3.index t (0 : Fin 2) * 128 + 1 * a.val = 128 * t.val + a.val; omega
  | ⟨1, _⟩ => show win0_3.index t (1 : Fin 2) * 32 + 1 * b.val = b.val; omega

/-- The tile's quantized weights are the whole array's at the tile's channels. -/
theorem wq_tile (c : Dev nD) (t : Fin cfg0.N) (a : Fin 128) (b : Fin 32) (j : Fin 128) :
    wq 128 (qblk m c t) a b j = wq 11008 (argQ m c) (chan t a) b j := by
  unfold wq
  rw [qblk_apply]

/-! ## What each point writes, and the whole result -/

/-- Entry (r, c) of the block point `t` stores is the result at row r, channel 128 t + c. -/
theorem stored_at (c : Dev nD) (t : Fin cfg0.N) (r : Fin 512) (a : Fin 128) :
    k0_pay1 (F := Ideal) (qblk m c t) (sblk m c t) (zblk m c t) (xblk m c t) (ix2 r a)
      = outAt (argX m c) (argQ m c) (argS m c) (argZ m c) r (chan t a) := by
  rw [Body.payload_apply]
  unfold outAt
  refine Finset.sum_congr rfl fun k _ => ?_
  rw [xblk_apply, zblk_apply, sblk_apply, wq_tile]
  rfl

/-- WHAT POINT `t` WRITES BACK is block `t` of `Dequant.result` of the four arguments. -/
theorem flushed_eq (c : Dev nD) (t : Fin cfg0.N) :
    (dats m 0 c).flushed 4 t
      = ((cfg0.win 4).blk t).view.read (Elt Ideal) (result (argX m c) (argQ m c) (argS m c) (argZ m c)) := by
  rw [Cert.KernelIdeal.Value.flushed4]
  unfold out0_4
  rw [View.canon_unit_zero zeros2]
  simp only [View.ld_unit_zero (S := S512x4096) zeros2, View.ld_unit_zero (S := S128x32x64) zeros3,
    View.ld_unit_zero (S := S128x32) zeros2]
  obtain ⟨-, -, -, -, -, -, -, -, -, e0, e1⟩ := index_maps t
  funext j
  obtain ⟨r, a, rfl⟩ : ∃ (r : Fin 512) (a : Fin 128), j = ix2 r a := ⟨j 0, j 1, eq_ix2 j⟩
  show k0_pay1 (F := Ideal) (qblk m c t) (sblk m c t) (zblk m c t) (xblk m c t) (ix2 r a)
    = result (argX m c) (argQ m c) (argS m c) (argZ m c) (((cfg0.win 4).blk t).view.emb (ix2 r a))
  rw [stored_at, ← result_ix2]
  refine congrArg (result (argX m c) (argQ m c) (argS m c) (argZ m c)) (funext fun d => Fin.ext ?_)
  match d with
  | ⟨0, _⟩ => show r.val = win0_4.index t (0 : Fin 2) * 512 + 1 * r.val; omega
  | ⟨1, _⟩ => show 128 * t.val + a.val = win0_4.index t (1 : Fin 2) * 128 + 1 * a.val; omega

/-- An index of the result is in point `t`'s block iff each coordinate is in the block's range on its axis. -/
theorem mem_block (t : Fin cfg0.N) (i : S512x11008.Idx) :
    i ∈ ((cfg0.win 4).blk t).view.set ↔ ∀ a : Fin 2, win0_4.index t a * S512x128.size a ≤ (i a).val
      ∧ (i a).val < win0_4.index t a * S512x128.size a + S512x128.size a := by
  show i ∈ ((View.whole main_v12).slice (win0_4.rect t)).set ↔ _
  rw [View.set_slice_whole, Rect.mem_set_unit]
  exact Iff.rfl

/-- Every entry of the result lies in the column block of some point: column n in that of point n / 128. -/
theorem covered (i : S512x11008.Idx) :
    ∃ t : Fin cfg0.N, (cfg0.win 4).flush t = true ∧ i ∈ ((cfg0.win 4).blk t).view.set := by
  have h0 : (i 0).val < 512 := (i 0).isLt
  have h1 : (i 1).val < 11008 := (i 1).isLt
  let t : Fin cfg0.N := ⟨(i 1).val / 128, by show (i 1).val / 128 < 86; omega⟩
  obtain ⟨-, -, -, -, -, -, -, -, -, e0, e1⟩ := index_maps t
  have ht : t.val = (i 1).val / 128 := rfl
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- THE RESULT ARRAY after the run is `Dequant.result` of the four arguments. -/
theorem final (c : Dev nD) :
    (dats m 0 c).arrAt 4 cfg0.N = result (argX m c) (argQ m c) (argS m c) (argZ m c) :=
  (dats m 0 c).arrAt_eq_of_cover 4 (result (argX m c) (argQ m c) (argS m c) (argZ m c))
    (fun t _ => flushed_eq m c t) covered

/-- The kernel's run: it ends with the result array at `Dequant.result` of the arguments, the arguments unchanged. -/
theorem run : θ_run defs (onTc (τ := τ) (main (F := Ideal))) ⟨m, fun _ => 0, ρ⟩ fun r => ∀ c : Dev nD,
      r.2.mem ((c : Thread nD τ).loc main_v12) = result (argX m c) (argQ m c) (argS m c) (argZ m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Dequant.Kernel

end
-- ==== Proof.RefValue.lean ====
/-
  The reference computes `Dequant.result`.

  Its product contracts the rows of x with the columns of the transposed dequantized weight matrix, so entry (r, n) is
  Σ_k x (r, k) · W (n, k). W is the [11008, 32, 128] array (q − z) · s regrouped as [11008, 4096]: feature k of channel n
  is position k mod 128 of group k / 128. The reference subtracts the zero point from the quantized weight as 32-bit
  integers and converts the difference; both are nibbles, so the difference does not wrap and its conversion is the
  difference of the conversions (`sitofp_sub_nib`).
-/
import proofs.«424820_j67130338836764_1_alg».proof.Proof.Weights
import proofs.«424820_j67130338836764_1_alg».proof.Proof.Gen.ReferenceIdeal.Read

noncomputable section

namespace Cert.Dequant.Ref

open Idealize.ShloMosaic Idealize.ShloMosaic.ValueIdx Cert.ReferenceIdeal Cert.ReferenceIdeal.Read Cert.Dequant

variable (x0 : (⟨S512x4096, .f32⟩ : BufTy).Contents (Elt Ideal)) (x1 : (⟨S11008x32x64, .i32⟩ : BufTy).Contents (Elt Ideal))
  (x2 : (⟨S352256, .f32⟩ : BufTy).Contents (Elt Ideal)) (x3 : (⟨S176128, .i32⟩ : BufTy).Contents (Elt Ideal))

/-! ## The integer stages -/

/-- The low nibbles of the packed weights, with the unit axis appended. -/
theorem low_words (a : Fin 11008) (b : Fin 32) (i : Fin 64) :
    val_main_v6 (F := Ideal) x1 (ix4 a b i (0 : Fin 1)) = x1 (ix3 a b i) &&& 15#32 := by
  unfold val_main_v6
  rw [broadcastInDim_append_unit3_apply]
  rfl

/-- The high nibbles of the packed weights, with the unit axis appended. -/
theorem high_words (a : Fin 11008) (b : Fin 32) (i : Fin 64) :
    val_main_v7 (F := Ideal) x1 (ix4 a b i (0 : Fin 1)) = (x1 (ix3 a b i)).sshiftRight' 4#32 &&& 15#32 := by
  unfold val_main_v7
  rw [broadcastInDim_append_unit3_apply]
  show IntOp.andi (IntOp.shrsi .host (x1 (ix3 a b i)) 4#32) 15#32 = _
  rw [shrsi_four]
  rfl

/-- The unpacked quantized weights. -/
theorem quantized_weights (n : Fin 11008) (b : Fin 32) (j : Fin 128) :
    val_main_v9 (F := Ideal) x1 (ix3 n b j) = wq 11008 x1 n b j := by
  unfold val_main_v9 val_main_v8
  exact weight_words_apply 11008 x1 _ _ (low_words x1) (high_words x1) _ _ n b j

/-- The low nibbles of the packed zero points, with the unit axis appended. -/
theorem low_zeros (p : Fin 176128) :
    val_main_v16 (F := Ideal) x3 (ix2 p (0 : Fin 1)) = x3 (ix1 p) &&& 15#32 := by
  unfold val_main_v16
  rw [broadcastInDim_append_unit1_apply]
  rfl

/-- The high nibbles of the packed zero points, with the unit axis appended. -/
theorem high_zeros (p : Fin 176128) :
    val_main_v17 (F := Ideal) x3 (ix2 p (0 : Fin 1)) = (x3 (ix1 p)).sshiftRight' 4#32 &&& 15#32 := by
  unfold val_main_v17
  rw [broadcastInDim_append_unit1_apply]
  show IntOp.andi (IntOp.shrsi .host (x3 (ix1 p)) 4#32) 15#32 = _
  rw [shrsi_four]
  rfl

/-- The zero-point table. -/
theorem zero_points (n : Fin 11008) (b : Fin 32) :
    val_main_v19 (F := Ideal) x3 (ix2 n b) = zpt x3 n b := by
  unfold val_main_v19 val_main_v18
  exact zero_table_apply x3 _ _ (low_zeros x3) (high_zeros x3) _ _ n b

/-! ## Where each stage reads its operand -/

theorem idx_v29 (k : Fin 4096) (n : Fin 11008) : idx_main_v29 (ix2 k n) = ix2 n k :=
  funext fun a => match a with | ⟨0, _⟩ => rfl | ⟨1, _⟩ => rfl

theorem idx_v28 (n : Fin 11008) (k : Fin 4096) : idx_main_v28 (ix2 n k) = ix3 n (grp k) (pos k) :=
  funext fun a => Fin.ext (by
    have hn := n.isLt
    have hk := k.isLt
    match a with
    | ⟨0, _⟩ => show (n.val * 4096 + k.val) / 4096 = n.val; omega
    | ⟨1, _⟩ => show (n.val * 4096 + k.val) / 128 % 32 = k.val / 128; omega
    | ⟨2, _⟩ => show (n.val * 4096 + k.val) % 128 = k.val % 128; omega)

theorem idx_v22 (n : Fin 11008) (b : Fin 32) (j : Fin 128) : idx_main_v22 (ix3 n b j) = ix3 n b (0 : Fin 1) :=
  funext fun a => match a with | ⟨0, _⟩ => rfl | ⟨1, _⟩ => rfl | ⟨2, _⟩ => rfl

theorem idx_v21 (n : Fin 11008) (b : Fin 32) : idx_main_v21 (ix3 n b (0 : Fin 1)) = ix2 n b :=
  funext fun a => match a with | ⟨0, _⟩ => rfl | ⟨1, _⟩ => rfl

theorem idx_v26 (n : Fin 11008) (b : Fin 32) (j : Fin 128) : idx_main_v26 (ix3 n b j) = ix3 n b (0 : Fin 1) :=
  funext fun a => match a with | ⟨0, _⟩ => rfl | ⟨1, _⟩ => rfl | ⟨2, _⟩ => rfl

theorem idx_v25 (n : Fin 11008) (b : Fin 32) : idx_main_v25 (ix3 n b (0 : Fin 1)) = ix2 n b :=
  funext fun a => match a with | ⟨0, _⟩ => rfl | ⟨1, _⟩ => rfl

theorem idx_v20 (n : Fin 11008) (b : Fin 32) :
    idx_main_v20 (ix2 n b) = ix1 (⟨n.val * 32 + b.val, by omega⟩ : Fin 352256) :=
  funext fun a => match a with | ⟨0, _⟩ => rfl

/-! ## The dequantized weight -/

/-- Entry (n, b, j) of (q − z) · s. -/
theorem dequantized (n : Fin 11008) (b : Fin 32) (j : Fin 128) :
    val_main_v27 (F := Ideal) x1 x2 x3 (ix3 n b j)
      = ((((wq 11008 x1 n b j).toInt : ℝ) : EReal) - (((zpt x3 n b).toInt : ℝ) : EReal)) * scl x2 n b := by
  rw [val_main_v27_apply, val_main_v24_apply, val_main_v23_apply, quantized_weights,
    val_main_v22_apply, idx_v22, val_main_v21_apply, idx_v21, zero_points,
    val_main_v26_apply, idx_v26, val_main_v25_apply, idx_v25, val_main_v20_apply, idx_v20,
    sitofp_sub_nib _ _ (wq_range 11008 x1 n b j) (zpt_range x3 n b)]
  rfl

/-- Entry (k, n) of the transposed dequantized weight matrix. -/
theorem weight (k : Fin 4096) (n : Fin 11008) :
    val_main_v29 (F := Ideal) x1 x2 x3 (ix2 k n) = wt x1 x2 x3 n k := by
  rw [val_main_v29_apply, idx_v29, val_main_v28_apply, idx_v28, dequantized]
  rfl

/-! ## The result -/

theorem lidx (r : Fin 512) (n : Fin 11008) (k : Fin 4096) : lidx_main_v30 (ix2 r n) k = ix2 r k :=
  funext fun a => match a with | ⟨0, _⟩ => rfl | ⟨1, _⟩ => rfl

theorem ridx (r : Fin 512) (n : Fin 11008) (k : Fin 4096) : ridx_main_v30 (ix2 r n) k = ix2 k n :=
  funext fun a => match a with | ⟨0, _⟩ => rfl | ⟨1, _⟩ => rfl

/-- THE REFERENCE'S RESULT is `Dequant.result` of its four arguments. -/
theorem result_eq : val_main_v30 (F := Ideal) x0 x1 x2 x3 = result x0 x1 x2 x3 := by
  funext i
  obtain ⟨r, n, rfl⟩ : ∃ (r : Fin 512) (n : Fin 11008), i = ix2 r n := ⟨i 0, i 1, eq_ix2 i⟩
  rw [val_main_v30_apply, result_ix2]
  unfold outAt
  refine Finset.sum_congr rfl fun k _ => ?_
  rw [lidx, ridx, weight]

end Cert.Dequant.Ref

end
-- ==== Proof.lean ====
/-
  A linear layer with four-bit block-quantized weights: the kernel and its reference compute one function.

  Both programs compute out (r, n) = Σ_k x (r, k) · W (n, k) over 4096 input features, where the dequantized weight is
  W (n, k) = (q (n, k) − z (n, g)) · s (n, g) with g = k / 128 the feature's group, q and z four-bit fields unpacked from
  packed 32-bit words (low nibble first, then the high one) and s read from a flat table at 32 n + g
  (`Dequant.result`, Proof/Weights.lean).

  The two differ in three ways, none of which changes the value over the extended reals.
  (1) The reference subtracts z from q as 32-bit integers and converts the difference to a float; the kernel converts
      both and subtracts the floats. Both are nibbles, between 0 and 15, so the integer difference does not wrap and its
      conversion is the difference of the conversions (Proof/Nibbles.lean).
  (2) The kernel narrows both operands of its product to bf16, which is the identity on the ideal values, and contracts
      the weight block on its last axis; the reference transposes the weight matrix and contracts its first axis. Either
      way entry (r, n) is the same sum over k.
  (3) The kernel works tile by tile: grid point t computes the 128 output channels 128 t … 128 t + 127 from rows
      128 t … of the packed weights, of the regrouped scales and of the unpacked, converted zero points (the last two
      prepared by the host before the launch), and writes column block t of the result; the 86 blocks tile it
      (Proof/KernelPayload.lean, Proof/KernelValue.lean). The reference does the same arithmetic on whole arrays
      (Proof/RefValue.lean).
  No step uses that the inputs are finite: the two sides are the same expression in +, − and ·, term by term.
-/
import proofs.«424820_j67130338836764_1_alg».proof.Defs
import proofs.«424820_j67130338836764_1_alg».proof.Proof.Gen.Kernel
import proofs.«424820_j67130338836764_1_alg».proof.Proof.Gen.Kernel.Skeleton
import proofs.«424820_j67130338836764_1_alg».proof.Proof.Gen.Kernel.Launch
import proofs.«424820_j67130338836764_1_alg».proof.Proof.Gen.Kernel.Points
import proofs.«424820_j67130338836764_1_alg».proof.Proof.Gen.Kernel.Frame
import proofs.«424820_j67130338836764_1_alg».proof.Proof.Gen.KernelIdeal
import proofs.«424820_j67130338836764_1_alg».proof.Proof.Gen.KernelIdeal.Skeleton
import proofs.«424820_j67130338836764_1_alg».proof.Proof.Gen.KernelIdeal.Launch
import proofs.«424820_j67130338836764_1_alg».proof.Proof.Gen.KernelIdeal.Points
import proofs.«424820_j67130338836764_1_alg».proof.Proof.Gen.KernelIdeal.Frame
import proofs.«424820_j67130338836764_1_alg».proof.Proof.Gen.ReferenceIdeal
import proofs.«424820_j67130338836764_1_alg».proof.Proof.Gen.Pre_finite_inputs
import proofs.«424820_j67130338836764_1_alg».proof.Proof.Gen.KernelIdeal.Value
import proofs.«424820_j67130338836764_1_alg».proof.Proof.Gen.ReferenceIdeal.Run
import proofs.«424820_j67130338836764_1_alg».proof.Proof.Gen.ReferenceIdeal.Read
import proofs.«424820_j67130338836764_1_alg».proof.Proof.KernelValue
import proofs.«424820_j67130338836764_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference runs and leaves its arguments as they were: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at `Dequant.result` of
    those arguments: the kernel block by block (`Dequant.Kernel.run`), the reference as one term (`Dequant.Ref.result_eq`). -/
theorem algebraic : Cert.algebraic_KernelIdeal_ReferenceIdeal := by
  intro m ρ m' ρ' _ hagree
  refine ⟨_, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v30_eq _ _ _ _).trans (Cert.Dequant.Ref.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
